-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel

variable [Facts]

def fn {F : FTy → Type} [FloatOps F] (main_arg0 : FVec F S16777216x1 .f32) (main_arg1 : FVec F S16777216x1 .f32) : IVec S_ 1 :=
  let main_v0 : FVec F S16777216x1 .f32 := Host.absf main_arg0
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  let main_v4 : FVec F S16777216x1 .f32 := Host.absf main_arg1
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  main_v8
-- ==== Kernel.lean ====
abbrev S16777216x1 : Shape := ⟨2, ![16777216, 1]⟩
abbrev S131072x128 : Shape := ⟨2, ![131072, 128]⟩
abbrev S4096x128 : Shape := ⟨2, ![4096, 128]⟩

abbrev nBuf : Space → Nat
  | .hbm => 6
  | .vmem => 6
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S131072x128, .f32⟩
  | .hbm, ⟨3, _⟩ => ⟨S131072x128, .f32⟩
  | .hbm, ⟨4, _⟩ => ⟨S131072x128, .f32⟩
  | .hbm, ⟨5, _⟩ => ⟨S16777216x1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | _, _ => ⟨S16777216x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16777216x1_S131072x128 : S16777216x1.ShapeCasts S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S131072x128_S16777216x1 : S131072x128.ShapeCasts S16777216x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216x1 : Shape := ⟨2, ![16777216, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S_, .f32⟩
  | .hbm, ⟨3, _⟩ => ⟨S16777216x1, .f32⟩
  | .hbm, ⟨4, _⟩ => ⟨S16777216x1, .f32⟩
  | .hbm, ⟨5, _⟩ => ⟨S_, .f32⟩
  | .hbm, ⟨6, _⟩ => ⟨S16777216x1, .f32⟩
  | .hbm, ⟨7, _⟩ => ⟨S16777216x1, .f32⟩
  | .hbm, ⟨8, _⟩ => ⟨S16777216x1, .f32⟩
  | .hbm, ⟨9, _⟩ => ⟨S16777216x1, .f32⟩
  | .hbm, ⟨10, _⟩ => ⟨S16777216x1, .f32⟩
  | .hbm, ⟨11, _⟩ => ⟨S16777216x1, .f32⟩
  | _, _ => ⟨S16777216x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S16777216x1 : S_.BroadcastsInDim S16777216x1 (![] : Fin 0 → Fin S16777216x1.rank)

variable [Facts₀]

class Facts : Prop extends Facts₀ where

variable [Facts]
-- ==== Proof.ClipSpec.lean ====
/-
  What both programs compute, one element at a time. For a target value `y` the feasible interval of a prediction has
  the two ends `-9 · y` and `11 · y`; which of them is the smaller depends on the sign of `y`, so the lower end is
  their minimum and the upper end their maximum, and a prediction `p` is clipped into the interval:

      clip p y = min (max (-9·y) (11·y)) (max (min (-9·y) (11·y)) p).

  The two scale factors are kept as the binary words both programs print (`-9.0` and `11.0` in f32), so nothing here
  depends on what a word denotes, and the function is stated over any float instance. A whole array is clipped index by
  index; an index-by-index function commutes with every re-laying of the arrays in row-major order, and re-laying there
  and back is the identity, which is all that relates the kernel's [131072, 128] layout to the reference's [16777216, 1].
-/
import Idealize.ShloMosaic.Lib.Pipeline.Value

noncomputable section

namespace Cert.Clip

open Idealize.ShloMosaic

variable {F : FTy → Type} [FloatOps F]

/-- The end `-9 · y` of the feasible interval. -/
def endNeg (y : F .f32) : F .f32 := FloatOps.mulf (FloatOps.ofBits .f32 0xC1100000#32) y

/-- The end `11 · y` of the feasible interval. -/
def endPos (y : F .f32) : F .f32 := FloatOps.mulf (FloatOps.ofBits .f32 0x41300000#32) y

/-- One prediction clipped into the interval between the two ends, the smaller end below and the larger above. -/
def clip (p y : F .f32) : F .f32 :=
  FloatOps.minimumf (FloatOps.maximumf (endNeg y) (endPos y)) (FloatOps.maximumf (FloatOps.minimumf (endNeg y) (endPos y)) p)

/-- A whole array of predictions clipped against an array of targets of the same shape, index by index. -/
def clipAll {s : Shape} (pred y : s.Idx → F .f32) : s.Idx → F .f32 := fun i => clip (pred i) (y i)

theorem clipAll_apply {s : Shape} (pred y : s.Idx → F .f32) (i : s.Idx) : clipAll pred y i = clip (pred i) (y i) := rfl

/-- Clipping commutes with a row-major re-laying: re-laid operands clip to the re-laid result. -/
theorem clipAll_shapeCast {s t : Shape} (pred y : s.Idx → F .f32) (h : s.ShapeCasts t) :
    clipAll (shapeCast t pred h) (shapeCast t y h) = shapeCast t (clipAll pred y) h := rfl

/-- Re-lay both operands, clip, and re-lay the result back: the clip of the operands as they were. -/
theorem shapeCast_clipAll_shapeCast {s t : Shape} (pred y : s.Idx → F .f32) (h : s.ShapeCasts t) (h' : t.ShapeCasts s) :
    shapeCast s (clipAll (shapeCast t pred h) (shapeCast t y h)) h' = clipAll pred y := by
  rw [clipAll_shapeCast, shapeCast_shapeCast]

end Cert.Clip

end
-- ==== Proof.RefClip.lean ====
/-
  The reference computes the clip directly on the [16777216, 1] arrays: it forms the two ends by multiplying the
  targets with the broadcast scalars, takes their minimum and maximum, and its `clip` is `min upper (max lower pred)`.
  Read at an index, operation by operation (the generated read-at-an-index lemmas of its run), its result is the
  specification's `clip` of the two arguments at that index: the same operations in the same order on the same words.
-/
import proofs.«119434_j33784212750850_1_alg».proof.Proof.Gen.ReferenceIdeal.Read
import proofs.«119434_j33784212750850_1_alg».proof.Proof.ClipSpec

noncomputable section

namespace Cert.ReferenceIdeal.RefClip

open Idealize.ShloMosaic Cert.ReferenceIdeal Cert.ReferenceIdeal.Read Cert.Clip

variable {F : FTy → Type} [FloatOps F]

/-- The reference's result, as the function of its two arguments its run states, is the index-by-index clip of the
    predictions (argument 0) against the targets (argument 1). -/
theorem result_eq (x0 x1 : (⟨S16777216x1, .f32⟩ : BufTy).Contents (Elt F)) :
    val_main_v6 (F := F) x0 x1 = clipAll (F := F) x0 x1 := by
  funext i
  rw [val_main_v6_apply, val_main_v5_apply, val_main_call0_v0_apply, val_main_v4_apply, val_main_v1_apply,
    val_main_v3_apply, val_main_v0_apply, val_main_v2_apply, val_main_cst_apply, val_main_cst_0_apply]
  rfl

end Cert.ReferenceIdeal.RefClip

end
-- ==== Proof.KernelBlocks.lean ====
/-
  The kernel's output array after the pallas_call, as one function of the two arrays the call is given.

  The call works on the [131072, 128] re-laying of the inputs, cut into 32 blocks of 4096 whole rows: grid point `t`
  reads rows `4096·t … 4096·t + 4095` of the predictions (window 0) and of the targets (window 1) and writes the same
  rows of the output (window 2); all three index maps are `t ↦ (t, 0)`. The body loads both blocks whole, computes the
  clip elementwise, and stores the result over the whole output block, so what point `t` writes back is block `t` of
  the clip of the two whole arrays; the 32 blocks tile the 131072 rows, so the output array ends as that clip everywhere.
-/
import proofs.«119434_j33784212750850_1_alg».proof.Proof.Gen.KernelIdeal.Frame
import proofs.«119434_j33784212750850_1_alg».proof.Proof.ClipSpec
import Idealize.ShloMosaic.Lib.Pipeline.Value

set_option maxRecDepth 16384

noncomputable section

namespace Cert.KernelIdeal.ClipValue

open Idealize.ShloMosaic Idealize.ShloMosaic.TcCoe Idealize.SL.Sem
open Idealize.ShloMosaic.Pipeline (Dat Cfg Window)
open Cert.KernelIdeal Cert.KernelIdeal.Gen Cert.Clip

variable {F : FTy → Type} [FloatOps F]
variable (m : (ℓ : Loc nD τ sig) → Buf (Elt F) ℓ)

/-- The body's accesses start at the block's origin. -/
theorem origin_zero : (![0, 0] : Fin 2 → Nat) = fun _ => 0 := funext fun a => by fin_cases a <;> rfl

/-- The value the body stores, from the block of targets it loads first and the block of predictions it loads second:
    the predictions clipped against the targets, element by element (the two same-shape casts are the identity). -/
theorem stored_eq (yb pb : Vec F S4096x128 .f32) : k0_pay1 yb pb = clipAll (F := F) pb yb := by
  unfold k0_pay1
  simp only [shapeCast_self]
  rfl

/-- The three index maps over the grid: every window's block at point `t` is block row `t`, block column `0`. -/
theorem block_index : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every one of the 32 block rows is some point's output block. -/
theorem block_row_onto : ∀ q : Fin 32, ∃ t : Fin cfg0.N, win0_2.index t = ![q.val, 0] :=
  (by decide +kernel : ∀ q : Fin 32, ∃ t : Fin grid0.N, win0_2.index t = ![q.val, 0])

/-- What point `t` writes back is block `t` of the clip of the two whole arrays as the call finds them. -/
theorem written_back (c : Dev nD) (t : Fin cfg0.N) :
    (dats m 0 c).flushed 2 t = ((cfg0.win 2).blk t).view.read (Elt F) (clipAll (F := F) (V m c main_v0) (V m c main_v1)) := by
  show (cfg0.win 2).cut (grid0.coords t) ((dats m 0 c).after 2 t) = _
  rw [after0_2]
  unfold out0_2
  rw [View.canon_unit_zero origin_zero]
  simp only [View.ld_unit_zero (S := S4096x128) origin_zero]
  rw [stored_eq]
  obtain ⟨e0, e1, e2, e3⟩ := block_index t
  funext j
  show clip (V m c main_v0 (((cfg0.win 0).blk t).view.emb j)) (V m c main_v1 (((cfg0.win 1).blk t).view.emb j))
    = clip (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 4096 + 1 * (j 0).val = win0_2.index t (0 : Fin 2) * 4096 + 1 * (j 0).val; omega
    | ⟨1, _⟩ => show win0_1.index t (1 : Fin 2) * 128 + 1 * (j 1).val = win0_2.index t (1 : Fin 2) * 128 + 1 * (j 1).val; omega
  rw [h0, h1]

/-- An index of the output array lies in point `t`'s block iff each coordinate lies in the block's range on its axis. -/
theorem mem_block (t : Fin cfg0.N) (i : S131072x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v2).slice (win0_2.rect t)).set ↔ _
  rw [View.set_slice_whole, Rect.mem_set_unit]
  exact Iff.rfl

/-- The blocks tile the array: row `r` lies in the block of the point whose block row is `r / 4096`. -/
theorem covered (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  obtain ⟨t, ht⟩ := block_row_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

/-- The output array after the call: the clip of the two arrays the call is given, at every index. -/
theorem output_array (c : Dev nD) :
    (dats m 0 c).arrAt 2 cfg0.N = clipAll (F := F) (V m c main_v0) (V m c main_v1) :=
  (dats m 0 c).arrAt_eq_of_cover 2 _ (fun t _ => written_back m c t) (fun i => covered i)

end Cert.KernelIdeal.ClipValue

end
-- ==== Proof.KernelRun.lean ====
/-
  The kernel program's whole run, read as a value. Its host lines re-lay each [16777216, 1] argument as [131072, 128]
  before the pallas_call and re-lay the call's [131072, 128] output back to [16777216, 1] after it; all three are
  row-major re-layings. The call leaves the clip of its two operands (the blocks tile the array), the operands are the
  re-laid arguments, and clipping index by index commutes with re-laying, so the program's result is the clip of the
  arguments themselves: re-laying there and back is the identity.
-/
import proofs.«119434_j33784212750850_1_alg».proof.Proof.KernelBlocks
import Idealize.ShloMosaic.Lib.StableHlo.Run

set_option maxRecDepth 16384

noncomputable section

namespace Cert.KernelIdeal.ClipValue

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Clip

variable {F : FTy → Type} [FloatOps F]
variable (m : (ℓ : Loc nD τ sig) → Buf (Elt F) ℓ) (ρ : Dev nD → PrngReg)

/-- The predictions as the call finds them: argument 0 re-laid as [131072, 128]. -/
theorem entry_pred (c : Dev nD) :
    (V m c main_v0 : S131072x128.Idx → F .f32)
      = shapeCast S131072x128 (m ((c : Thread nD τ).loc main_arg0)) shapeCasts_S16777216x1_S131072x128 := by
  show StableHlo.after hostOps0 (fun b => m (c, b)) (Proc.devRef .tc main_v0) = _
  after_results; rfl

/-- The targets as the call finds them: argument 1 re-laid as [131072, 128]. -/
theorem entry_tgt (c : Dev nD) :
    (V m c main_v1 : S131072x128.Idx → F .f32)
      = shapeCast S131072x128 (m ((c : Thread nD τ).loc main_arg1)) shapeCasts_S16777216x1_S131072x128 := by
  show StableHlo.after hostOps0 (fun b => m (c, b)) (Proc.devRef .tc main_v1) = _
  after_results; rfl

/-- The program's result after the line that follows the call: the call's output re-laid back as [16777216, 1], which
    is the clip of the two arguments index by index. -/
theorem result_array (c : Dev nD) :
    Pipeline.afterTail₀ cfgs (dats m) 0 (V0 m) [hostOps1] c main_v3
      = clipAll (F := F) (m ((c : Thread nD τ).loc main_arg0)) (m ((c : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = clipAll (F := F) (V m c main_v0) (V m c main_v1) :=
    (Pipeline.withArrays_arr spec0 launch0.win.arr_inj c _ _ 2).trans (output_array m c)
  rw [hw, entry_pred, entry_tgt]
  exact shapeCast_clipAll_shapeCast _ _ _ _

/-- The frame run re-posted: on every device the program ends with its result at the clip of the two arguments, index
    by index, and with the arguments as launched. -/
theorem run : θ_run defs (onTc (τ := τ) (main (F := F))) ⟨m, fun _ => 0, ρ⟩ fun r => ∀ c : Dev nD,
      r.2.mem ((c.tc : Thread nD τ).loc main_v3)
        = clipAll (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_array m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.ClipValue

end
-- ==== Proof.lean ====
/-
  An elementwise clip, certified against its jnp reference over the extended reals.

  For predictions `p` and targets `y`, both of shape [16777216, 1], the reference returns, element by element,
  `min (max (-9·y) (11·y)) (max (min (-9·y) (11·y)) p)`: the prediction clipped into the interval whose ends are
  `-9·y` and `11·y`, the smaller end below. The kernel re-lays both arrays as [131072, 128], runs one pallas_call over
  32 blocks of 4096 rows whose body computes the same expression on a block (the same two f32 words for `-9` and `11`,
  the same order of the minimum and maximum operations), and re-lays the output back to [16777216, 1].

  The two results are the same function of the arguments, with no algebra between them: the kernel's blocks tile its
  output array, so the call leaves the clip of the two re-laid arrays; clipping acts index by index and therefore
  commutes with a row-major re-laying; and re-laying there and back is the identity. Nothing depends on the inputs
  being finite. The idealization rewrote no operation, so there is nothing to preserve beyond the text itself.

  The three frames are the generated ones (the reference's is its generated run with the result dropped); the kernel's
  value is read off its generated frame run (Proof/KernelBlocks.lean, Proof/KernelRun.lean), the reference's off its
  generated run (Proof/RefClip.lean), both against one specification (Proof/ClipSpec.lean).
-/
import proofs.«119434_j33784212750850_1_alg».proof.Defs
import proofs.«119434_j33784212750850_1_alg».proof.Proof.Gen.Kernel
import proofs.«119434_j33784212750850_1_alg».proof.Proof.Gen.Kernel.Skeleton
import proofs.«119434_j33784212750850_1_alg».proof.Proof.Gen.Kernel.Launch
import proofs.«119434_j33784212750850_1_alg».proof.Proof.Gen.Kernel.Points
import proofs.«119434_j33784212750850_1_alg».proof.Proof.Gen.Kernel.Frame
import proofs.«119434_j33784212750850_1_alg».proof.Proof.Gen.KernelIdeal
import proofs.«119434_j33784212750850_1_alg».proof.Proof.Gen.KernelIdeal.Skeleton
import proofs.«119434_j33784212750850_1_alg».proof.Proof.Gen.KernelIdeal.Launch
import proofs.«119434_j33784212750850_1_alg».proof.Proof.Gen.KernelIdeal.Points
import proofs.«119434_j33784212750850_1_alg».proof.Proof.Gen.KernelIdeal.Frame
import proofs.«119434_j33784212750850_1_alg».proof.Proof.Gen.ReferenceIdeal
import proofs.«119434_j33784212750850_1_alg».proof.Proof.Gen.Pre_finite_inputs
import proofs.«119434_j33784212750850_1_alg».proof.Proof.Gen.ReferenceIdeal.Run
import proofs.«119434_j33784212750850_1_alg».proof.Proof.Gen.ReferenceIdeal.Read
import Idealize.ShloMosaic.Adequacy
import Idealize.ShloMosaic.Init
import proofs.«119434_j33784212750850_1_alg».proof.Proof.RefClip
import proofs.«119434_j33784212750850_1_alg».proof.Proof.KernelRun

noncomputable section

namespace Cert.Proof

open Idealize.ShloMosaic Idealize.SL.Sem Cert.Clip

/-- The kernel as printed runs to the end and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs to the end and leaves its arguments as launched: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- From memories that agree on the two arguments, the kernel ends with its result at the index-by-index clip of the
    predictions against the targets, and so does the reference. -/
theorem algebraic : Cert.algebraic_KernelIdeal_ReferenceIdeal := by
  intro m ρ m' ρ' _ hagree
  refine ⟨_, Cert.KernelIdeal.ClipValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v6_eq _ _).trans (Cert.ReferenceIdeal.RefClip.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
